-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v25_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_arg7 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S1x128 .f32) (main_arg6 : FVec F S1 .f32) (main_arg7 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S128x1 : Shape := ⟨2, ![128, 1]⟩
abbrev S1x1 : Shape := ⟨2, ![1, 1]⟩

abbrev nBuf : Space → Nat
  | .hbm => 59
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000x1, .f32⟩
  | .hbm, ⟨14, _⟩ => ⟨S_, .f32⟩
  | .hbm, ⟨15, _⟩ => ⟨S100000x1, .f32⟩
  | .hbm, ⟨16, _⟩ => ⟨S1600000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S128x1, .f32⟩
  | .hbm, ⟨56, _⟩ => ⟨S128x1, .f32⟩
  | .hbm, ⟨57, _⟩ => ⟨S1x1, .f32⟩
  | .hbm, ⟨58, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S128x1, .f32⟩
  | .local _ .vmem, ⟨20, _⟩ => ⟨S1x1, .f32⟩
  | .local _ .vmem, ⟨21, _⟩ => ⟨S128x1, .f32⟩
  | .local _ .vmem, ⟨22, _⟩ => ⟨S4000x1, .f32⟩
  | .local _ .vmem, ⟨23, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S1x128_S128x1_1_0 : S1x128.Transposes [1, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x1.size a ≤ S100000x1.size a
  hwx1_6 : ∀ i : grid1.Coords, EltTy.bits .f32 = 32 ∨ (Rect.block (s := S100000x1) S4000x1.size (cc1_transform_6 i) (hinb1_6 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_1) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25_1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S4000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S128x1 : Shape := ⟨2, ![128, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S1x1600000, .i32⟩
  | .hbm, ⟨48, _⟩ => ⟨S1600000, .i32⟩
  | .hbm, ⟨49, _⟩ => ⟨S1x1600000, .i32⟩
  | .hbm, ⟨50, _⟩ => ⟨S1600000, .i32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000x1, .f32⟩
  | .hbm, ⟨66, _⟩ => ⟨S_, .f32⟩
  | .hbm, ⟨67, _⟩ => ⟨S100000x1, .f32⟩
  | .hbm, ⟨68, _⟩ => ⟨S1600000x1, .i32⟩
  | .hbm, ⟨69, _⟩ => ⟨S100000x1, .f32⟩
  | .hbm, ⟨70, _⟩ => ⟨S_, .f32⟩
  | .hbm, ⟨71, _⟩ => ⟨S100000x1, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x1, .f32⟩
  | .hbm, ⟨76, _⟩ => ⟨S100000x1, .f32⟩
  | .hbm, ⟨77, _⟩ => ⟨S1x1, .f32⟩
  | .hbm, ⟨78, _⟩ => ⟨S100000x1, .f32⟩
  | .hbm, ⟨79, _⟩ => ⟨S100000x1, .f32⟩
  | .hbm, ⟨80, _⟩ => ⟨S128x1, .f32⟩
  | .hbm, ⟨81, _⟩ => ⟨S100000x1, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S_, .f32⟩
  | .hbm, ⟨89, _⟩ => ⟨S100000x1, .f32⟩
  | .hbm, ⟨90, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Lin.lean ====
/-
  One mean-aggregating linear layer, entry by entry, on the extended reals.

  For a matrix `x` of `n` rows and 128 columns, the matrix `agg` of the rows' neighbour sums, a column `inv` holding one
  factor per row, two weight matrices of 128 rows and `m` columns and a row `b` of `m` biases, the layer's entry in row
  `r` and column `j` is

      (Σ_k (agg[r,k] · inv[r]) · wl[k,j])  +  (Σ_k x[r,k] · wr[k,j])  +  b[j].

  The same layer written with a quotient, `agg[r,k] / d[r]`, and with the bias added before the second product, is the
  same number whenever the factor is the reciprocal `1 / d[r]` of a divisor `d[r] = max c 1`: such a divisor is at
  least one, so it is not zero, and then dividing by it IS multiplying by its inverse; sums of extended reals commute.
-/
import Idealize.ShloMosaic.Lib.ValueIdx
import Idealize.ShloMosaic.PureOps.Ideal.Laws

noncomputable section

open Idealize.ShloMosaic Idealize.ShloMosaic.ValueIdx
open scoped BigOperators

namespace Cert.Sage

/-- Row of `i`, column `k`. -/
abbrev inRow {n m : Nat} (i : (⟨2, ![n, m]⟩ : Shape).Idx) (k : Fin 128) : (⟨2, ![n, 128]⟩ : Shape).Idx :=
  ix2 ⟨(i 0).val, idx2_lt0 i⟩ k
/-- Row `k`, column of `i`. -/
abbrev inCol {n m : Nat} (i : (⟨2, ![n, m]⟩ : Shape).Idx) (k : Fin 128) : (⟨2, ![128, m]⟩ : Shape).Idx :=
  ix2 k ⟨(i 1).val, idx2_lt1 i⟩
/-- Row of `i` in a one-column matrix. -/
abbrev rowHead {n m : Nat} (i : (⟨2, ![n, m]⟩ : Shape).Idx) : (⟨2, ![n, 1]⟩ : Shape).Idx :=
  ix2 ⟨(i 0).val, idx2_lt0 i⟩ (0 : Fin 1)
/-- Column of `i` in a one-row matrix. -/
abbrev colHead {n m : Nat} (i : (⟨2, ![n, m]⟩ : Shape).Idx) : (⟨2, ![1, m]⟩ : Shape).Idx :=
  ix2 (0 : Fin 1) ⟨(i 1).val, idx2_lt1 i⟩

/-- The layer with the mean taken by a per-row FACTOR. -/
def lin {n m : Nat} (x agg : (⟨2, ![n, 128]⟩ : Shape).Idx → EReal) (inv : (⟨2, ![n, 1]⟩ : Shape).Idx → EReal)
    (wl wr : (⟨2, ![128, m]⟩ : Shape).Idx → EReal) (b : (⟨2, ![1, m]⟩ : Shape).Idx → EReal) :
    (⟨2, ![n, m]⟩ : Shape).Idx → EReal := fun i =>
  ((∑ k : Fin 128, (agg (inRow i k) * inv (rowHead i)) * wl (inCol i k)) + ∑ k : Fin 128, x (inRow i k) * wr (inCol i k))
    + b (colHead i)

/-- The layer with the mean taken by a per-row DIVISOR, the bias added before the second product. -/
def linDiv {n m : Nat} (x agg : (⟨2, ![n, 128]⟩ : Shape).Idx → EReal) (d : (⟨2, ![n, 1]⟩ : Shape).Idx → EReal)
    (wl wr : (⟨2, ![128, m]⟩ : Shape).Idx → EReal) (b : (⟨2, ![1, m]⟩ : Shape).Idx → EReal) :
    (⟨2, ![n, m]⟩ : Shape).Idx → EReal := fun i =>
  ((∑ k : Fin 128, Ideal.div (agg (inRow i k)) (d (rowHead i)) * wl (inCol i k)) + b (colHead i))
    + ∑ k : Fin 128, x (inRow i k) * wr (inCol i k)

/-- A divisor `max c 1` is not zero. -/
theorem max_one_ne_zero (c : EReal) : max c 1 ≠ 0 :=
  ne_of_gt (lt_of_lt_of_le zero_lt_one (le_max_right c 1))

/-- Scaling by the reciprocal of `max c 1` is dividing by it. -/
theorem mul_recip_eq_div (a c : EReal) : a * Ideal.div 1 (max c 1) = Ideal.div a (max c 1) := by
  unfold Ideal.div
  rw [if_neg (max_one_ne_zero c), if_neg (max_one_ne_zero c), one_mul]

/-- The two spellings agree when the factor is the reciprocal of the divisor `max c 1`. -/
theorem lin_eq_linDiv {n m : Nat} (x agg : (⟨2, ![n, 128]⟩ : Shape).Idx → EReal) (inv c : (⟨2, ![n, 1]⟩ : Shape).Idx → EReal)
    (wl wr : (⟨2, ![128, m]⟩ : Shape).Idx → EReal) (b : (⟨2, ![1, m]⟩ : Shape).Idx → EReal)
    (hinv : ∀ r, inv r = Ideal.div 1 (max (c r) 1)) :
    lin x agg inv wl wr b = linDiv x agg (fun r => max (c r) 1) wl wr b := by
  funext i
  unfold lin linDiv
  have h : ∀ k : Fin 128, (agg (inRow i k) * inv (rowHead i)) * wl (inCol i k)
      = Ideal.div (agg (inRow i k)) (max (c (rowHead i)) 1) * wl (inCol i k) := fun k => by
    rw [hinv, mul_recip_eq_div]
  rw [Finset.sum_congr rfl fun k _ => h k]
  exact add_right_comm _ _ _

/-- The same, with the factor spelt as the host spells it: a column of ones divided, entry by entry, by the larger of
    the count and that column. -/
theorem lin_hostRecip_eq_linDiv {n m : Nat} (x agg : (⟨2, ![n, 128]⟩ : Shape).Idx → EReal)
    (one c : FVec Ideal (⟨2, ![n, 1]⟩ : Shape) .f32)
    (wl wr : (⟨2, ![128, m]⟩ : Shape).Idx → EReal) (b : (⟨2, ![1, m]⟩ : Shape).Idx → EReal)
    (h1 : ∀ r, one r = 1) :
    lin x agg (Host.divf (F := Ideal) (φ := .f32) one (maximumf (F := Ideal) c one)) wl wr b
      = linDiv x agg (fun r => max (c r) 1) wl wr b :=
  lin_eq_linDiv x agg _ c wl wr b fun r => by
    show Ideal.div (one r) (max (c r) (one r)) = _
    rw [h1]

end Cert.Sage

end
-- ==== Proof.Body.lean ====
/-
  The two kernel bodies as functions of the blocks they load, entry by entry.

  Layer 1's body multiplies the block of neighbour sums by the block's column of per-row factors, takes the two matrix
  products into zero accumulators, and adds the bias row: that is the layer `Cert.Sage.lin` of the loaded blocks (a change
  of float format is the identity on the extended reals; a product into a zero accumulator is the plain sum over the
  shared axis). Its second store is the first one's value, clamped below at zero. Layer 2's body is the same layer with
  one output column, then the logistic function.
-/
import proofs.«413222_j89378269430400_3_alg».proof.Proof.Gen.KernelIdeal.Skeleton
import proofs.«413222_j89378269430400_3_alg».proof.Proof.Lin
import Idealize.ShloMosaic.Lib.Pipeline.Value

noncomputable section

open Idealize.ShloMosaic Idealize.ShloMosaic.ValueIdx
open scoped BigOperators

namespace Cert.KernelIdeal.Body

open Cert.KernelIdeal Cert.KernelIdeal.Gen Cert.Sage

/-! ## The matrix products at one entry -/

theorem lhsA_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsA_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhsA_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhsA_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, at one entry: the sum over the shared axis. -/
theorem mmA_apply (l : FVec Ideal S4000x128 .bf16) (r : FVec Ideal S128x128 .bf16) (i : S4000x128.Idx) :
    matmul dot_S4000x128_S128x128_S4000x128_1_0_0_1_n_n none l r (constant S4000x128 .f32 0x00000000#32) i
      = ∑ k : Fin 128, l (inRow i k) * r (inCol i k) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx i ((ValueIdx.contrEquiv1 dot_S4000x128_S128x128_S4000x128_1_0_0_1_n_n 128 rfl rfl).symm k) = inRow i k := funext fun a => Fin.ext (by
    match a with
    | ⟨0, _⟩ => exact lhsA_0 _ _
    | ⟨1, _⟩ => exact (lhsA_1 _ _).trans hk)
  have er : dot_S4000x128_S128x128_S4000x128_1_0_0_1_n_n.rhsIdx i ((ValueIdx.contrEquiv1 dot_S4000x128_S128x128_S4000x128_1_0_0_1_n_n 128 rfl rfl).symm k) = inCol i k := funext fun a => Fin.ext (by
    match a with
    | ⟨0, _⟩ => exact (rhsA_0 _ _).trans hk
    | ⟨1, _⟩ => exact rhsA_1 _ _)
  rw [el, er]

theorem lhsB_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhsB_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhsB_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhsB_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The product into a zero accumulator, at one entry: the sum over the shared axis. -/
theorem mmB_apply (l : FVec Ideal S4000x128 .bf16) (r : FVec Ideal S128x1 .bf16) (i : S4000x1.Idx) :
    matmul dot_S4000x128_S128x1_S4000x1_1_0_0_1_n_n none l r (constant S4000x1 .f32 0x00000000#32) i
      = ∑ k : Fin 128, l (inRow i k) * r (inCol i k) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx i ((ValueIdx.contrEquiv1 dot_S4000x128_S128x1_S4000x1_1_0_0_1_n_n 128 rfl rfl).symm k) = inRow i k := funext fun a => Fin.ext (by
    match a with
    | ⟨0, _⟩ => exact lhsB_0 _ _
    | ⟨1, _⟩ => exact (lhsB_1 _ _).trans hk)
  have er : dot_S4000x128_S128x1_S4000x1_1_0_0_1_n_n.rhsIdx i ((ValueIdx.contrEquiv1 dot_S4000x128_S128x1_S4000x1_1_0_0_1_n_n 128 rfl rfl).symm k) = inCol i k := funext fun a => Fin.ext (by
    match a with
    | ⟨0, _⟩ => exact (rhsB_0 _ _).trans hk
    | ⟨1, _⟩ => exact rhsB_1 _ _)
  rw [el, er]

/-! ## The broadcasts at one entry -/

/-- A column of per-row values spread over 128 columns reads the row's value. -/
theorem spreadCol_apply (v : FVec Ideal S4000x1 .f32) (j : S4000x128.Idx) :
    broadcastTo S4000x128 v broadcasts_S4000x1_S4000x128 j = v (rowHead j) :=
  broadcastTo_apply v broadcasts_S4000x1_S4000x128 j (rowHead j) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])

/-- A row of per-column values spread over 4000 rows reads the column's value. -/
theorem spreadRow_apply (v : FVec Ideal S1x128 .f32) (j : S4000x128.Idx) :
    broadcastTo S4000x128 v broadcasts_S1x128_S4000x128 j = v (colHead j) :=
  broadcastTo_apply v broadcasts_S1x128_S4000x128 j (colHead j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- One value spread over a column of 4000 rows reads that value. -/
theorem spreadOne_apply (v : FVec Ideal S1x1 .f32) (j : S4000x1.Idx) :
    broadcastTo S4000x1 v broadcasts_S1x1_S4000x1 j = v (colHead j) :=
  broadcastTo_apply v broadcasts_S1x1_S4000x1 j (colHead j) (fun a => match a with
    | ⟨0, _⟩ => by show 0 = if (1 : Nat) = 1 then 0 else (j 0).val; rw [if_pos rfl]
    | ⟨1, _⟩ => by
      show (j 1).val = if (1 : Nat) = 1 then 0 else (j 1).val
      rw [if_pos rfl]; have := idx2_lt1 j; omega)

/-! ## The bodies -/

/-- Layer 1's first store: the layer of the loaded blocks. -/
theorem hidden_eq (a : FVec Ideal S4000x128 .f32) (n : FVec Ideal S4000x1 .f32) (x : FVec Ideal S4000x128 .f32)
    (wl wr : FVec Ideal S128x128 .f32) (b : FVec Ideal S1x128 .f32) :
    k0_pay1 (F := Ideal) a n x wl wr b = lin x a n wl wr b := by
  funext i
  unfold k0_pay1 lin
  simp only [addf_apply, mmA_apply, truncf_apply, mulf_apply, shapeCast_self, spreadCol_apply, spreadRow_apply]

/-- Layer 1's second store: the first one clamped below at zero. -/
theorem relu_eq (a : FVec Ideal S4000x128 .f32) (n : FVec Ideal S4000x1 .f32) (x : FVec Ideal S4000x128 .f32)
    (wl wr : FVec Ideal S128x128 .f32) (b : FVec Ideal S1x128 .f32) :
    k0_pay2 (F := Ideal) a n x wl wr b = fun i => max (lin x a n wl wr b i) (Ideal.ofBits .f32 0x00000000#32) := by
  funext i
  unfold k0_pay2
  simp only [maximumf_apply, hidden_eq, broadcast_apply]
  rfl

/-- Layer 2's store: the logistic function of the one-column layer of the loaded blocks. -/
theorem out_eq (a : FVec Ideal S4000x128 .f32) (n : FVec Ideal S4000x1 .f32) (x : FVec Ideal S4000x128 .f32)
    (wl wr : FVec Ideal S128x1 .f32) (b : FVec Ideal S1x1 .f32) :
    k1_pay1 (F := Ideal) a n x wl wr b = fun i => Ideal.logistic (lin x a n wl wr b i) := by
  funext i
  unfold k1_pay1 lin
  simp only [logistic, Ideal.logistic_def, addf_apply, mmB_apply, truncf_apply, mulf_apply, shapeCast_self, spreadCol_apply, spreadOne_apply]

end Cert.KernelIdeal.Body

end
-- ==== Proof.Layer1.lean ====
/-
  Layer 1 as one function of whole arrays.

  The first kernel call visits 25 grid points; at point `t` it reads rows `4000·t … 4000·t + 3999` of the node features,
  of the neighbour sums and of the per-row factors, reads the two weight matrices and the bias row whole, and writes the
  same rows of its two results. Each result block is the layer `Cert.Sage.lin` of the loaded blocks (Body.lean), and an
  entry of that layer depends only on its own row of the row-blocked operands: so block `t` of the result is block `t` of
  the layer applied to the WHOLE arrays. The 25 blocks cover every row (row `r` lies in block `r / 4000`), hence after
  the call the first result array is `lin` of the arrays the call found, and the second that clamped below at zero.
-/
import proofs.«413222_j89378269430400_3_alg».proof.Proof.Gen.KernelIdeal.Frame
import proofs.«413222_j89378269430400_3_alg».proof.Proof.Body
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Layer1

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## The arrays the call finds -/

/-- The node features. -/
abbrev xA (c : Dev nD) : FVec Ideal S100000x128 .f32 := V c main_arg0
/-- The neighbour sums. -/
abbrev aggA (c : Dev nD) : FVec Ideal S100000x128 .f32 := V c main_v21
/-- The per-row factors. -/
abbrev invA (c : Dev nD) : FVec Ideal S100000x1 .f32 := V c main_v11
/-- The weights applied to the mean. -/
abbrev wlA (c : Dev nD) : FVec Ideal S128x128 .f32 := V c main_v22
/-- The bias row. -/
abbrev bA (c : Dev nD) : FVec Ideal S1x128 .f32 := V c main_v24
/-- The weights applied to the node's own features. -/
abbrev wrA (c : Dev nD) : FVec Ideal S128x128 .f32 := V c main_v23

/-- The pre-activation of every node. -/
abbrev hid (c : Dev nD) : FVec Ideal S100000x128 .f32 :=
  lin (xA V c) (aggA V c) (invA V c) (wlA V c) (wrA V c) (bA V c)
/-- The activation of every node. -/
abbrev act (c : Dev nD) : FVec Ideal S100000x128 .f32 :=
  fun i => max (hid V c i) (Ideal.ofBits .f32 0x00000000#32)

/-! ## Where each window's block lies -/

/-- The row-blocked windows are at block row `t`, the whole-array windows at block 0, at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The features' block at a point: rows `4000·t …` of the array. -/
theorem blk_x (c : Dev nD) (t : Fin cfg0.N) (y : S4000x128.Idx) (k : S100000x128.Idx)
    (h0 : (k 0).val = t.val * 4000 + (y 0).val) (h1 : (k 1).val = (y 1).val) :
    (iblk0 V c 0 t : FVec Ideal S4000x128 .f32) y = xA V c k := by
  obtain ⟨er, ec, -⟩ := idx_facts t
  unfold iblk0
  rw [View.read_apply]
  show V c main_arg0 _ = V c main_arg0 k
  refine congrArg (V c main_arg0) ?_
  funext a
  apply Fin.ext
  match a with
  | ⟨0, _⟩ => show win0_0.index t (0 : Fin 2) * 4000 + 1 * (y 0).val = (k 0).val; rw [er, h0]; omega
  | ⟨1, _⟩ => show win0_0.index t (1 : Fin 2) * 128 + 1 * (y 1).val = (k 1).val; rw [ec, h1]; omega

/-- The neighbour sums' block at a point: rows `4000·t …` of the array. -/
theorem blk_agg (c : Dev nD) (t : Fin cfg0.N) (y : S4000x128.Idx) (k : S100000x128.Idx)
    (h0 : (k 0).val = t.val * 4000 + (y 0).val) (h1 : (k 1).val = (y 1).val) :
    (iblk0 V c 1 t : FVec Ideal S4000x128 .f32) y = aggA V c k := by
  obtain ⟨-, -, er, ec, -⟩ := idx_facts t
  unfold iblk0
  rw [View.read_apply]
  show V c main_v21 _ = V c main_v21 k
  refine congrArg (V c main_v21) ?_
  funext a
  apply Fin.ext
  match a with
  | ⟨0, _⟩ => show win0_1.index t (0 : Fin 2) * 4000 + 1 * (y 0).val = (k 0).val; rw [er, h0]; omega
  | ⟨1, _⟩ => show win0_1.index t (1 : Fin 2) * 128 + 1 * (y 1).val = (k 1).val; rw [ec, h1]; omega

/-- The factors' block at a point: rows `4000·t …` of the column. -/
theorem blk_inv (c : Dev nD) (t : Fin cfg0.N) (y : S4000x1.Idx) (k : S100000x1.Idx)
    (h0 : (k 0).val = t.val * 4000 + (y 0).val) (h1 : (k 1).val = (y 1).val) :
    (iblk0 V c 2 t : FVec Ideal S4000x1 .f32) y = invA V c k := by
  obtain ⟨-, -, -, -, er, ec, -⟩ := idx_facts t
  unfold iblk0
  rw [View.read_apply]
  show V c main_v11 _ = V c main_v11 k
  refine congrArg (V c main_v11) ?_
  funext a
  apply Fin.ext
  match a with
  | ⟨0, _⟩ => show win0_2.index t (0 : Fin 2) * 4000 + 1 * (y 0).val = (k 0).val; rw [er, h0]; omega
  | ⟨1, _⟩ => show win0_2.index t (1 : Fin 2) * 1 + 1 * (y 1).val = (k 1).val; rw [ec, h1]; omega

/-- The first weight matrix is read whole at every point. -/
theorem blk_wl (c : Dev nD) (t : Fin cfg0.N) : (iblk0 V c 3 t : FVec Ideal S128x128 .f32) = wlA V c := by
  obtain ⟨-, -, -, -, -, -, er, ec, -⟩ := idx_facts t
  funext y
  unfold iblk0
  rw [View.read_apply]
  show V c main_v22 _ = V c main_v22 y
  refine congrArg (V c main_v22) ?_
  funext a
  apply Fin.ext
  match a with
  | ⟨0, _⟩ => show win0_3.index t (0 : Fin 2) * 128 + 1 * (y 0).val = (y 0).val; rw [er]; omega
  | ⟨1, _⟩ => show win0_3.index t (1 : Fin 2) * 128 + 1 * (y 1).val = (y 1).val; rw [ec]; omega

/-- The bias row is read whole at every point. -/
theorem blk_b (c : Dev nD) (t : Fin cfg0.N) : (iblk0 V c 4 t : FVec Ideal S1x128 .f32) = bA V c := by
  obtain ⟨-, -, -, -, -, -, -, -, er, ec, -⟩ := idx_facts t
  funext y
  unfold iblk0
  rw [View.read_apply]
  show V c main_v24 _ = V c main_v24 y
  refine congrArg (V c main_v24) ?_
  funext a
  apply Fin.ext
  match a with
  | ⟨0, _⟩ => show win0_4.index t (0 : Fin 2) * 1 + 1 * (y 0).val = (y 0).val; rw [er]; omega
  | ⟨1, _⟩ => show win0_4.index t (1 : Fin 2) * 128 + 1 * (y 1).val = (y 1).val; rw [ec]; omega

/-- The second weight matrix is read whole at every point. -/
theorem blk_wr (c : Dev nD) (t : Fin cfg0.N) : (iblk0 V c 5 t : FVec Ideal S128x128 .f32) = wrA V c := by
  obtain ⟨-, -, -, -, -, -, -, -, -, -, er, ec, -⟩ := idx_facts t
  funext y
  unfold iblk0
  rw [View.read_apply]
  show V c main_v23 _ = V c main_v23 y
  refine congrArg (V c main_v23) ?_
  funext a
  apply Fin.ext
  match a with
  | ⟨0, _⟩ => show win0_5.index t (0 : Fin 2) * 128 + 1 * (y 0).val = (y 0).val; rw [er]; omega
  | ⟨1, _⟩ => show win0_5.index t (1 : Fin 2) * 128 + 1 * (y 1).val = (y 1).val; rw [ec]; omega

/-! ## What the body leaves, as the layer of the loaded blocks -/

/-- The first result's staging buffer after the body. -/
theorem out_h (x0 x1 : Vec Ideal S4000x128 .f32) (x2 : Vec Ideal S4000x1 .f32) (x3 : Vec Ideal S128x128 .f32)
    (x4 : Vec Ideal S1x128 .f32) (x5 : Vec Ideal S128x128 .f32) :
    out0_6 (F := Ideal) x0 x1 x2 x3 x4 x5 = lin x0 x1 x2 x3 x5 x4 := by
  unfold out0_6
  rw [View.canon_unit_zero hz]
  simp only [View.ld_unit_zero (S := S4000x128) hz, View.ld_unit_zero (S := S4000x1) hz,
    View.ld_unit_zero (S := S128x128) hz, View.ld_unit_zero (S := S1x128) hz]
  exact Body.hidden_eq x1 x2 x0 x3 x5 x4

/-- The second result's staging buffer after the body. -/
theorem out_a (x0 x1 : Vec Ideal S4000x128 .f32) (x2 : Vec Ideal S4000x1 .f32) (x3 : Vec Ideal S128x128 .f32)
    (x4 : Vec Ideal S1x128 .f32) (x5 : Vec Ideal S128x128 .f32) :
    out0_7 (F := Ideal) x0 x1 x2 x3 x4 x5 = fun i => max (lin x0 x1 x2 x3 x5 x4 i) (Ideal.ofBits .f32 0x00000000#32) := by
  unfold out0_7
  rw [View.canon_unit_zero hz]
  simp only [View.ld_unit_zero (S := S4000x128) hz, View.ld_unit_zero (S := S4000x1) hz,
    View.ld_unit_zero (S := S128x128) hz, View.ld_unit_zero (S := S1x128) hz]
  exact Body.relu_eq x1 x2 x0 x3 x5 x4

/-! ## A block of the layer is the layer of the blocks -/

/-- The layer of point `t`'s blocks, at an entry, is the layer of the whole arrays at that entry of block `t`. -/
theorem lin_blocks (c : Dev nD) (t : Fin cfg0.N) (j : S4000x128.Idx) (i : S100000x128.Idx)
    (h0 : (i 0).val = t.val * 4000 + (j 0).val) (h1 : (i 1).val = (j 1).val) :
    lin (iblk0 V c 0 t : FVec Ideal S4000x128 .f32) (iblk0 V c 1 t : FVec Ideal S4000x128 .f32)
        (iblk0 V c 2 t : FVec Ideal S4000x1 .f32) (iblk0 V c 3 t : FVec Ideal S128x128 .f32)
        (iblk0 V c 5 t : FVec Ideal S128x128 .f32) (iblk0 V c 4 t : FVec Ideal S1x128 .f32) j
      = hid V c i := by
  rw [blk_wl V c t, blk_wr V c t, blk_b V c t]
  unfold lin
  have ea : ∀ k : Fin 128, (iblk0 V c 1 t : FVec Ideal S4000x128 .f32) (inRow j k) = aggA V c (inRow i k) := fun k =>
    blk_agg V c t _ _ h0 rfl
  have ex : ∀ k : Fin 128, (iblk0 V c 0 t : FVec Ideal S4000x128 .f32) (inRow j k) = xA V c (inRow i k) := fun k =>
    blk_x V c t _ _ h0 rfl
  have en : (iblk0 V c 2 t : FVec Ideal S4000x1 .f32) (rowHead j) = invA V c (rowHead i) :=
    blk_inv V c t _ _ h0 rfl
  have ewl : ∀ k : Fin 128, wlA V c (inCol j k) = wlA V c (inCol i k) := fun k =>
    congrArg (wlA V c) (funext fun a => Fin.ext (by match a with | ⟨0, _⟩ => rfl | ⟨1, _⟩ => exact h1.symm))
  have ewr : ∀ k : Fin 128, wrA V c (inCol j k) = wrA V c (inCol i k) := fun k =>
    congrArg (wrA V c) (funext fun a => Fin.ext (by match a with | ⟨0, _⟩ => rfl | ⟨1, _⟩ => exact h1.symm))
  have eb : bA V c (colHead j) = bA V c (colHead i) :=
    congrArg (bA V c) (funext fun a => Fin.ext (by match a with | ⟨0, _⟩ => rfl | ⟨1, _⟩ => exact h1.symm))
  simp only [ea, ex, en, ewl, ewr, eb]
  rfl

/-! ## The two result arrays after the call -/

/-- An index of a result array is in point `t`'s block iff each coordinate is in the block's range on its axis. -/
theorem mem_blk_h (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v25_0).slice (win0_6.rect t)).set ↔ _
  rw [View.set_slice_whole, Rect.mem_set_unit]
  exact Iff.rfl
theorem mem_blk_a (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v25_1).slice (win0_7.rect t)).set ↔ _
  rw [View.set_slice_whole, Rect.mem_set_unit]
  exact Iff.rfl

/-- Row `r` lies in block `r / 4000`. -/
theorem cover_h (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, er, ec, -⟩ := idx_facts t
  refine ⟨t, flush0_6 t, ?_⟩
  rw [mem_blk_h]
  intro a
  match a with
  | ⟨0, _⟩ => show win0_6.index t (0 : Fin 2) * 4000 ≤ (i 0).val ∧ (i 0).val < win0_6.index t (0 : Fin 2) * 4000 + 4000; rw [er, ht]; omega
  | ⟨1, _⟩ => show win0_6.index t (1 : Fin 2) * 128 ≤ (i 1).val ∧ (i 1).val < win0_6.index t (1 : Fin 2) * 128 + 128; rw [ec]; omega
theorem cover_a (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, -, -, er, ec⟩ := idx_facts t
  refine ⟨t, flush0_7 t, ?_⟩
  rw [mem_blk_a]
  intro a
  match a with
  | ⟨0, _⟩ => show win0_7.index t (0 : Fin 2) * 4000 ≤ (i 0).val ∧ (i 0).val < win0_7.index t (0 : Fin 2) * 4000 + 4000; rw [er, ht]; omega
  | ⟨1, _⟩ => show win0_7.index t (1 : Fin 2) * 128 ≤ (i 1).val ∧ (i 1).val < win0_7.index t (1 : Fin 2) * 128 + 128; rw [ec]; omega

/-- What point `t` writes back to the first result is block `t` of the pre-activation. -/
theorem flushed_h (c : Dev nD) (t : Fin cfg0.N) :
    (dat0 V c).flushed 6 t = ((cfg0.win 6).blk t).view.read (Elt Ideal) (hid V c) := by
  obtain ⟨-, -, -, -, -, -, -, -, -, -, -, -, er, ec, -⟩ := idx_facts t
  show (cfg0.win 6).cut (grid0.coords t) ((dat0 V c).after 6 t) = _
  rw [after0_6, out_h]
  funext j
  show _ = hid V c (((cfg0.win 6).blk t).view.emb j)
  refine lin_blocks V c t j _ ?_ ?_
  · show win0_6.index t (0 : Fin 2) * 4000 + 1 * (j 0).val = t.val * 4000 + (j 0).val; rw [er]; omega
  · show win0_6.index t (1 : Fin 2) * 128 + 1 * (j 1).val = (j 1).val; rw [ec]; omega

/-- What point `t` writes back to the second result is block `t` of the activation. -/
theorem flushed_a (c : Dev nD) (t : Fin cfg0.N) :
    (dat0 V c).flushed 7 t = ((cfg0.win 7).blk t).view.read (Elt Ideal) (act V c) := by
  obtain ⟨-, -, -, -, -, -, -, -, -, -, -, -, -, -, er, ec⟩ := idx_facts t
  show (cfg0.win 7).cut (grid0.coords t) ((dat0 V c).after 7 t) = _
  rw [after0_7, out_a]
  funext j
  show _ = max (hid V c (((cfg0.win 7).blk t).view.emb j)) (Ideal.ofBits .f32 0x00000000#32)
  refine congrArg (fun z => max z (Ideal.ofBits .f32 0x00000000#32)) (lin_blocks V c t j _ ?_ ?_)
  · show win0_7.index t (0 : Fin 2) * 4000 + 1 * (j 0).val = t.val * 4000 + (j 0).val; rw [er]; omega
  · show win0_7.index t (1 : Fin 2) * 128 + 1 * (j 1).val = (j 1).val; rw [ec]; omega

/-- After the call the first result array is the pre-activation of every node. -/
theorem arr_h (c : Dev nD) : (dat0 V c).arrAt 6 cfg0.N = hid V c :=
  (dat0 V c).arrAt_eq_of_cover 6 (hid V c) (fun t _ => flushed_h V c t) cover_h

/-- After the call the second result array is the activation of every node. -/
theorem arr_a (c : Dev nD) : (dat0 V c).arrAt 7 cfg0.N = act V c :=
  (dat0 V c).arrAt_eq_of_cover 7 (act V c) (fun t _ => flushed_a V c t) cover_a

end Cert.KernelIdeal.Layer1

end
-- ==== Proof.Layer2.lean ====
/-
  Layer 2 as one function of whole arrays.

  The second kernel call visits 25 grid points; at point `t` it reads rows `4000·t … 4000·t + 3999` of the activations,
  of their neighbour sums and of the per-row factors, reads the two one-column weight matrices and the one bias whole,
  and writes the same rows of its result column. Each result block is the logistic function of the one-column layer
  `Cert.Sage.lin` of the loaded blocks (Body.lean), and an entry of it depends only on its own row of the row-blocked
  operands: so block `t` of the result is block `t` of that function of the WHOLE arrays. The 25 blocks cover every row,
  hence after the call the result column is the logistic function of `lin` of the arrays the call found.
-/
import proofs.«413222_j89378269430400_3_alg».proof.Proof.Gen.KernelIdeal.Frame
import proofs.«413222_j89378269430400_3_alg».proof.Proof.Body
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Layer2

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## The arrays the call finds -/

/-- The activations. -/
abbrev xA (c : Dev nD) : FVec Ideal S100000x128 .f32 := V c main_v25_1
/-- Their neighbour sums. -/
abbrev aggA (c : Dev nD) : FVec Ideal S100000x128 .f32 := V c main_v35
/-- The per-row factors. -/
abbrev invA (c : Dev nD) : FVec Ideal S100000x1 .f32 := V c main_v11
/-- The weights applied to the mean. -/
abbrev wlA (c : Dev nD) : FVec Ideal S128x1 .f32 := V c main_v36
/-- The bias. -/
abbrev bA (c : Dev nD) : FVec Ideal S1x1 .f32 := V c main_v38
/-- The weights applied to the node's own activations. -/
abbrev wrA (c : Dev nD) : FVec Ideal S128x1 .f32 := V c main_v37

/-- The output of every node. -/
abbrev outp (c : Dev nD) : FVec Ideal S100000x1 .f32 :=
  fun i => Ideal.logistic (lin (xA V c) (aggA V c) (invA V c) (wlA V c) (wrA V c) (bA V c) i)

/-! ## Where each window's block lies -/

/-- The row-blocked windows are at block row `t`, the whole-array windows at block 0, at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The activations' block at a point: rows `4000·t …` of the array. -/
theorem blk_x (c : Dev nD) (t : Fin cfg1.N) (y : S4000x128.Idx) (k : S100000x128.Idx)
    (h0 : (k 0).val = t.val * 4000 + (y 0).val) (h1 : (k 1).val = (y 1).val) :
    (iblk1 V c 0 t : FVec Ideal S4000x128 .f32) y = xA V c k := by
  obtain ⟨er, ec, -⟩ := idx_facts t
  unfold iblk1
  rw [View.read_apply]
  show V c main_v25_1 _ = V c main_v25_1 k
  refine congrArg (V c main_v25_1) ?_
  funext a
  apply Fin.ext
  match a with
  | ⟨0, _⟩ => show win1_0.index t (0 : Fin 2) * 4000 + 1 * (y 0).val = (k 0).val; rw [er, h0]; omega
  | ⟨1, _⟩ => show win1_0.index t (1 : Fin 2) * 128 + 1 * (y 1).val = (k 1).val; rw [ec, h1]; omega

/-- The neighbour sums' block at a point: rows `4000·t …` of the array. -/
theorem blk_agg (c : Dev nD) (t : Fin cfg1.N) (y : S4000x128.Idx) (k : S100000x128.Idx)
    (h0 : (k 0).val = t.val * 4000 + (y 0).val) (h1 : (k 1).val = (y 1).val) :
    (iblk1 V c 1 t : FVec Ideal S4000x128 .f32) y = aggA V c k := by
  obtain ⟨-, -, er, ec, -⟩ := idx_facts t
  unfold iblk1
  rw [View.read_apply]
  show V c main_v35 _ = V c main_v35 k
  refine congrArg (V c main_v35) ?_
  funext a
  apply Fin.ext
  match a with
  | ⟨0, _⟩ => show win1_1.index t (0 : Fin 2) * 4000 + 1 * (y 0).val = (k 0).val; rw [er, h0]; omega
  | ⟨1, _⟩ => show win1_1.index t (1 : Fin 2) * 128 + 1 * (y 1).val = (k 1).val; rw [ec, h1]; omega

/-- The factors' block at a point: rows `4000·t …` of the column. -/
theorem blk_inv (c : Dev nD) (t : Fin cfg1.N) (y : S4000x1.Idx) (k : S100000x1.Idx)
    (h0 : (k 0).val = t.val * 4000 + (y 0).val) (h1 : (k 1).val = (y 1).val) :
    (iblk1 V c 2 t : FVec Ideal S4000x1 .f32) y = invA V c k := by
  obtain ⟨-, -, -, -, er, ec, -⟩ := idx_facts t
  unfold iblk1
  rw [View.read_apply]
  show V c main_v11 _ = V c main_v11 k
  refine congrArg (V c main_v11) ?_
  funext a
  apply Fin.ext
  match a with
  | ⟨0, _⟩ => show win1_2.index t (0 : Fin 2) * 4000 + 1 * (y 0).val = (k 0).val; rw [er, h0]; omega
  | ⟨1, _⟩ => show win1_2.index t (1 : Fin 2) * 1 + 1 * (y 1).val = (k 1).val; rw [ec, h1]; omega

/-- The first weight column is read whole at every point. -/
theorem blk_wl (c : Dev nD) (t : Fin cfg1.N) : (iblk1 V c 3 t : FVec Ideal S128x1 .f32) = wlA V c := by
  obtain ⟨-, -, -, -, -, -, er, ec, -⟩ := idx_facts t
  funext y
  unfold iblk1
  rw [View.read_apply]
  show V c main_v36 _ = V c main_v36 y
  refine congrArg (V c main_v36) ?_
  funext a
  apply Fin.ext
  match a with
  | ⟨0, _⟩ => show win1_3.index t (0 : Fin 2) * 128 + 1 * (y 0).val = (y 0).val; rw [er]; omega
  | ⟨1, _⟩ => show win1_3.index t (1 : Fin 2) * 1 + 1 * (y 1).val = (y 1).val; rw [ec]; omega

/-- The bias is read whole at every point. -/
theorem blk_b (c : Dev nD) (t : Fin cfg1.N) : (iblk1 V c 4 t : FVec Ideal S1x1 .f32) = bA V c := by
  obtain ⟨-, -, -, -, -, -, -, -, er, ec, -⟩ := idx_facts t
  funext y
  unfold iblk1
  rw [View.read_apply]
  show V c main_v38 _ = V c main_v38 y
  refine congrArg (V c main_v38) ?_
  funext a
  apply Fin.ext
  match a with
  | ⟨0, _⟩ => show win1_4.index t (0 : Fin 2) * 1 + 1 * (y 0).val = (y 0).val; rw [er]; omega
  | ⟨1, _⟩ => show win1_4.index t (1 : Fin 2) * 1 + 1 * (y 1).val = (y 1).val; rw [ec]; omega

/-- The second weight column is read whole at every point. -/
theorem blk_wr (c : Dev nD) (t : Fin cfg1.N) : (iblk1 V c 5 t : FVec Ideal S128x1 .f32) = wrA V c := by
  obtain ⟨-, -, -, -, -, -, -, -, -, -, er, ec, -⟩ := idx_facts t
  funext y
  unfold iblk1
  rw [View.read_apply]
  show V c main_v37 _ = V c main_v37 y
  refine congrArg (V c main_v37) ?_
  funext a
  apply Fin.ext
  match a with
  | ⟨0, _⟩ => show win1_5.index t (0 : Fin 2) * 128 + 1 * (y 0).val = (y 0).val; rw [er]; omega
  | ⟨1, _⟩ => show win1_5.index t (1 : Fin 2) * 1 + 1 * (y 1).val = (y 1).val; rw [ec]; omega

/-! ## What the body leaves, as a function of the loaded blocks -/

/-- The result's staging buffer after the body. -/
theorem out_o (x0 x1 : Vec Ideal S4000x128 .f32) (x2 : Vec Ideal S4000x1 .f32) (x3 : Vec Ideal S128x1 .f32)
    (x4 : Vec Ideal S1x1 .f32) (x5 : Vec Ideal S128x1 .f32) :
    out1_6 (F := Ideal) x0 x1 x2 x3 x4 x5 = fun i => Ideal.logistic (lin x0 x1 x2 x3 x5 x4 i) := by
  unfold out1_6
  rw [View.canon_unit_zero hz]
  simp only [View.ld_unit_zero (S := S4000x128) hz, View.ld_unit_zero (S := S4000x1) hz,
    View.ld_unit_zero (S := S128x1) hz, View.ld_unit_zero (S := S1x1) hz]
  exact Body.out_eq x1 x2 x0 x3 x5 x4

/-! ## A block of the layer is the layer of the blocks -/

/-- The layer of point `t`'s blocks, at an entry, is the layer of the whole arrays at that entry of block `t`. -/
theorem lin_blocks (c : Dev nD) (t : Fin cfg1.N) (j : S4000x1.Idx) (i : S100000x1.Idx)
    (h0 : (i 0).val = t.val * 4000 + (j 0).val) (h1 : (i 1).val = (j 1).val) :
    lin (iblk1 V c 0 t : FVec Ideal S4000x128 .f32) (iblk1 V c 1 t : FVec Ideal S4000x128 .f32)
        (iblk1 V c 2 t : FVec Ideal S4000x1 .f32) (iblk1 V c 3 t : FVec Ideal S128x1 .f32)
        (iblk1 V c 5 t : FVec Ideal S128x1 .f32) (iblk1 V c 4 t : FVec Ideal S1x1 .f32) j
      = lin (xA V c) (aggA V c) (invA V c) (wlA V c) (wrA V c) (bA V c) i := by
  rw [blk_wl V c t, blk_wr V c t, blk_b V c t]
  unfold lin
  have ea : ∀ k : Fin 128, (iblk1 V c 1 t : FVec Ideal S4000x128 .f32) (inRow j k) = aggA V c (inRow i k) := fun k =>
    blk_agg V c t _ _ h0 rfl
  have ex : ∀ k : Fin 128, (iblk1 V c 0 t : FVec Ideal S4000x128 .f32) (inRow j k) = xA V c (inRow i k) := fun k =>
    blk_x V c t _ _ h0 rfl
  have en : (iblk1 V c 2 t : FVec Ideal S4000x1 .f32) (rowHead j) = invA V c (rowHead i) :=
    blk_inv V c t _ _ h0 rfl
  have ewl : ∀ k : Fin 128, wlA V c (inCol j k) = wlA V c (inCol i k) := fun k =>
    congrArg (wlA V c) (funext fun a => Fin.ext (by match a with | ⟨0, _⟩ => rfl | ⟨1, _⟩ => exact h1.symm))
  have ewr : ∀ k : Fin 128, wrA V c (inCol j k) = wrA V c (inCol i k) := fun k =>
    congrArg (wrA V c) (funext fun a => Fin.ext (by match a with | ⟨0, _⟩ => rfl | ⟨1, _⟩ => exact h1.symm))
  have eb : bA V c (colHead j) = bA V c (colHead i) :=
    congrArg (bA V c) (funext fun a => Fin.ext (by match a with | ⟨0, _⟩ => rfl | ⟨1, _⟩ => exact h1.symm))
  simp only [ea, ex, en, ewl, ewr, eb]

/-! ## The result array after the call -/

/-- An index of the result column is in point `t`'s block iff each coordinate is in the block's range on its axis. -/
theorem mem_blk_o (t : Fin cfg1.N) (i : S100000x1.Idx) :
    i ∈ ((cfg1.win 6).blk t).view.set ↔ ∀ a : Fin 2, win1_6.index t a * S4000x1.size a ≤ (i a).val ∧ (i a).val < win1_6.index t a * S4000x1.size a + S4000x1.size a := by
  show i ∈ ((View.whole main_v39).slice (win1_6.rect t)).set ↔ _
  rw [View.set_slice_whole, Rect.mem_set_unit]
  exact Iff.rfl

/-- Row `r` lies in block `r / 4000`. -/
theorem cover_o (i : S100000x1.Idx) : ∃ t : Fin cfg1.N, (cfg1.win 6).flush t = true ∧ i ∈ ((cfg1.win 6).blk t).view.set := by
  have hi0 : (i 0).val < 100000 := (i 0).isLt
  have hi1 : (i 1).val < 1 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, er, ec⟩ := idx_facts t
  refine ⟨t, flush1_6 t, ?_⟩
  rw [mem_blk_o]
  intro a
  match a with
  | ⟨0, _⟩ => show win1_6.index t (0 : Fin 2) * 4000 ≤ (i 0).val ∧ (i 0).val < win1_6.index t (0 : Fin 2) * 4000 + 4000; rw [er, ht]; omega
  | ⟨1, _⟩ => show win1_6.index t (1 : Fin 2) * 1 ≤ (i 1).val ∧ (i 1).val < win1_6.index t (1 : Fin 2) * 1 + 1; rw [ec]; omega

/-- What point `t` writes back is block `t` of the output. -/
theorem flushed_o (c : Dev nD) (t : Fin cfg1.N) :
    (dat1 V c).flushed 6 t = ((cfg1.win 6).blk t).view.read (Elt Ideal) (outp V c) := by
  obtain ⟨-, -, -, -, -, -, -, -, -, -, -, -, er, ec⟩ := idx_facts t
  show (cfg1.win 6).cut (grid1.coords t) ((dat1 V c).after 6 t) = _
  rw [after1_6, out_o]
  funext j
  show _ = Ideal.logistic (lin (xA V c) (aggA V c) (invA V c) (wlA V c) (wrA V c) (bA V c) (((cfg1.win 6).blk t).view.emb j))
  refine congrArg Ideal.logistic (lin_blocks V c t j _ ?_ ?_)
  · show win1_6.index t (0 : Fin 2) * 4000 + 1 * (j 0).val = t.val * 4000 + (j 0).val; rw [er]; omega
  · show win1_6.index t (1 : Fin 2) * 1 + 1 * (j 1).val = (j 1).val; rw [ec]; omega

/-- After the call the result column is the output of every node. -/
theorem arr_o (c : Dev nD) : (dat1 V c).arrAt 6 cfg1.N = outp V c :=
  (dat1 V c).arrAt_eq_of_cover 6 (outp V c) (fun t _ => flushed_o V c t) cover_o

end Cert.KernelIdeal.Layer2

end
-- ==== Proof.HostK.lean ====
/-
  What the kernel program holds at each boundary between its host stretches and its two kernel calls, as functions of
  the arguments.

  The host stretch before the first call computes, from the edge list, the neighbour sums of the node features (gather
  the source rows, scatter-add them at the target rows), the number of incoming edges per node, and the reciprocal of
  that count clamped below at one; it transposes the two weight matrices and reshapes the bias. These are the same
  operations, on the same arguments, as the reference program applies, so each buffer is named here by the reference's
  own stage of that name. The stretch between the calls gathers and scatter-adds the first call's activations in the
  same way and transposes the second layer's weights. The first call leaves its inputs as it found them; its two result
  arrays, and the second call's, are the layers of Layer1.lean and Layer2.lean at the contents the call was entered with.
-/
import proofs.«413222_j89378269430400_3_alg».proof.Proof.Gen.KernelIdeal.Frame
import proofs.«413222_j89378269430400_3_alg».proof.Proof.Gen.ReferenceIdeal.Read
import proofs.«413222_j89378269430400_3_alg».proof.Proof.Layer1
import proofs.«413222_j89378269430400_3_alg».proof.Proof.Layer2

set_option maxRecDepth 16384

noncomputable section

open Idealize.ShloMosaic Idealize.ShloMosaic.TcCoe Idealize.SL.Sem

namespace Cert.KernelIdeal.Stretch

open Cert.KernelIdeal Cert.KernelIdeal.Gen

variable (m : (ℓ : Loc nD τ sig) → Buf (Elt Ideal) ℓ) (ρ : Dev nD → PrngReg)

/-! ## Entering the first call -/

/-- The node features are the first argument. -/
theorem V1_x (c : Dev nD) : (V1 m ρ c main_arg0 : FVec Ideal S100000x128 .f32) = (m ((c : Thread nD τ).loc main_arg0)) := by
  show StableHlo.after hostOps0 (W0 m ρ c) (Proc.devRef .tc main_arg0) = _
  after_results_simp

/-- The neighbour sums of the features. -/
theorem V1_agg (c : Dev nD) : (V1 m ρ c main_v21 : FVec Ideal S100000x128 .f32)
    = Cert.ReferenceIdeal.Read.val_main_v13 (F := Ideal) (m ((c : Thread nD τ).loc main_arg0)) (m ((c : Thread nD τ).loc main_arg1)) := by
  show StableHlo.after hostOps0 (W0 m ρ c) (Proc.devRef .tc main_v21) = _
  after_results_simp
  rfl

/-- The per-row factors: one over the clamped count of incoming edges. -/
theorem V1_inv (c : Dev nD) : (V1 m ρ c main_v11 : FVec Ideal S100000x1 .f32)
    = Host.divf (F := Ideal) (φ := .f32) (Cert.ReferenceIdeal.Read.val_main_v18 (F := Ideal))
        (maximumf (F := Ideal) (Cert.ReferenceIdeal.Read.val_main_v17 (F := Ideal) (m ((c : Thread nD τ).loc main_arg1))) (Cert.ReferenceIdeal.Read.val_main_v18 (F := Ideal))) := by
  show StableHlo.after hostOps0 (W0 m ρ c) (Proc.devRef .tc main_v11) = _
  after_results_simp
  rfl

/-- The first weight matrix, transposed. -/
theorem V1_wl (c : Dev nD) : (V1 m ρ c main_v22 : FVec Ideal S128x128 .f32) = Cert.ReferenceIdeal.Read.val_main_v22 (F := Ideal) (m ((c : Thread nD τ).loc main_arg2)) := by
  show StableHlo.after hostOps0 (W0 m ρ c) (Proc.devRef .tc main_v22) = _
  after_results_simp
  rfl

/-- The second weight matrix, transposed. -/
theorem V1_wr (c : Dev nD) : (V1 m ρ c main_v23 : FVec Ideal S128x128 .f32) = Cert.ReferenceIdeal.Read.val_main_v27 (F := Ideal) (m ((c : Thread nD τ).loc main_arg4)) := by
  show StableHlo.after hostOps0 (W0 m ρ c) (Proc.devRef .tc main_v23) = _
  after_results_simp
  rfl

/-- The bias as a one-row matrix. -/
theorem V1_b (c : Dev nD) : (V1 m ρ c main_v24 : FVec Ideal S1x128 .f32)
    = shapeCast S1x128 (m ((c : Thread nD τ).loc main_arg3)) shapeCasts_S128_S1x128 := by
  show StableHlo.after hostOps0 (W0 m ρ c) (Proc.devRef .tc main_v24) = _
  after_results_simp
  rfl

/-- The edge list's target row, as the first stretch leaves it. -/
theorem W1_dst (c : Dev nD) : (W1 m ρ c (Proc.devRef .tc main_v3) : IVec S1600000 32) = Cert.ReferenceIdeal.Read.val_main_v3 (F := Ideal) (m ((c : Thread nD τ).loc main_arg1)) := by
  show StableHlo.after hostOps0 (W0 m ρ c) (Proc.devRef .tc main_v3) = _
  after_results_simp
  rfl

/-- The edge list's source row, as the first stretch leaves it. -/
theorem W1_src (c : Dev nD) : (W1 m ρ c (Proc.devRef .tc main_v1) : IVec S1600000 32) = Cert.ReferenceIdeal.Read.val_main_v1 (F := Ideal) (m ((c : Thread nD τ).loc main_arg1)) := by
  show StableHlo.after hostOps0 (W0 m ρ c) (Proc.devRef .tc main_v1) = _
  after_results_simp
  rfl

/-! ## Leaving the first call -/

/-- Its first result: the pre-activation of every node. -/
theorem W2_h (c : Dev nD) : (W2 m ρ c (Proc.devRef .tc main_v25_0) : FVec Ideal S100000x128 .f32) = Layer1.hid (V1 m ρ) c :=
  (W2_arr m ρ c 6).trans (Layer1.arr_h (V1 m ρ) c)

/-- Its second result: the activation of every node. -/
theorem W2_a (c : Dev nD) : (W2 m ρ c (Proc.devRef .tc main_v25_1) : FVec Ideal S100000x128 .f32) = Layer1.act (V1 m ρ) c :=
  (W2_arr m ρ c 7).trans (Layer1.arr_a (V1 m ρ) c)

/-- The per-row factors are as the call found them. -/
theorem W2_inv (c : Dev nD) : (W2 m ρ c (Proc.devRef .tc main_v11) : FVec Ideal S100000x1 .f32) = V1 m ρ c main_v11 :=
  (W2_arr m ρ c 2).trans (((dat0 (V1 m ρ) c).arrAt_in 2 rfl _).trans (A_eq0 (V1 m ρ) c 2))

/-! ## Entering the second call -/

/-- The activations. -/
theorem V3_x (c : Dev nD) : (V3 m ρ c main_v25_1 : FVec Ideal S100000x128 .f32) = Layer1.act (V1 m ρ) c := by
  show StableHlo.after hostOps1 (W2 m ρ c) (Proc.devRef .tc main_v25_1) = _
  after_results_simp
  exact W2_a m ρ c

/-- The per-row factors again. -/
theorem V3_inv (c : Dev nD) : (V3 m ρ c main_v11 : FVec Ideal S100000x1 .f32) = V1 m ρ c main_v11 := by
  show StableHlo.after hostOps1 (W2 m ρ c) (Proc.devRef .tc main_v11) = _
  after_results_simp
  exact W2_inv m ρ c

/-- The neighbour sums of the activations. -/
theorem V3_agg (c : Dev nD) : (V3 m ρ c main_v35 : FVec Ideal S100000x128 .f32)
    = Host.scatterAdd (F := Ideal) Cert.ReferenceIdeal.scatter_S100000x128_S1600000x1_S1600000x128_1_0_0_1 (Cert.ReferenceIdeal.Read.val_main_v42 (F := Ideal))
        (Cert.ReferenceIdeal.Read.val_main_v43 (F := Ideal) (m ((c : Thread nD τ).loc main_arg1)))
        (Host.gather Cert.ReferenceIdeal.gather_S100000x128_S1600000x1_S1600000x128_1_0_n_n_0_1_1128 (Layer1.act (V1 m ρ) c)
          (Cert.ReferenceIdeal.Read.val_main_v40 (F := Ideal) (m ((c : Thread nD τ).loc main_arg1)))) := by
  show StableHlo.after hostOps1 (W2 m ρ c) (Proc.devRef .tc main_v35) = _
  after_results_simp
  rw [W2_of_ne m ρ c main_v3 (by decide), W2_of_ne m ρ c main_v1 (by decide), W1_dst, W1_src, W2_a]
  rfl

/-- The first weight column of layer 2: the row argument transposed. -/
theorem V3_wl (c : Dev nD) : (V3 m ρ c main_v36 : FVec Ideal S128x1 .f32) = Cert.ReferenceIdeal.Read.val_main_v53 (F := Ideal) (m ((c : Thread nD τ).loc main_arg5)) := by
  show StableHlo.after hostOps1 (W2 m ρ c) (Proc.devRef .tc main_v36) = _
  after_results_simp
  rw [W2_of_ne m ρ c main_arg5 (by decide)]
  show _ = Cert.ReferenceIdeal.Read.val_main_v53 (F := Ideal) (StableHlo.after hostOps0 (W0 m ρ c) (Proc.devRef .tc main_arg5))
  after_results_simp
  rfl

/-- The second weight column of layer 2. -/
theorem V3_wr (c : Dev nD) : (V3 m ρ c main_v37 : FVec Ideal S128x1 .f32) = Cert.ReferenceIdeal.Read.val_main_v58 (F := Ideal) (m ((c : Thread nD τ).loc main_arg7)) := by
  show StableHlo.after hostOps1 (W2 m ρ c) (Proc.devRef .tc main_v37) = _
  after_results_simp
  rw [W2_of_ne m ρ c main_arg7 (by decide)]
  show _ = Cert.ReferenceIdeal.Read.val_main_v58 (F := Ideal) (StableHlo.after hostOps0 (W0 m ρ c) (Proc.devRef .tc main_arg7))
  after_results_simp
  rfl

/-- The bias of layer 2 as a one-entry matrix. -/
theorem V3_b (c : Dev nD) : (V3 m ρ c main_v38 : FVec Ideal S1x1 .f32) = shapeCast S1x1 (m ((c : Thread nD τ).loc main_arg6)) shapeCasts_S1_S1x1 := by
  show StableHlo.after hostOps1 (W2 m ρ c) (Proc.devRef .tc main_v38) = _
  after_results_simp
  rw [W2_of_ne m ρ c main_arg6 (by decide)]
  show _ = shapeCast S1x1 (StableHlo.after hostOps0 (W0 m ρ c) (Proc.devRef .tc main_arg6)) shapeCasts_S1_S1x1
  after_results_simp
  rfl

/-! ## Leaving the second call -/

/-- The program's first result: the output of every node. -/
theorem W4_out (c : Dev nD) : (W4 m ρ c (Proc.devRef .tc main_v39) : FVec Ideal S100000x1 .f32) = Layer2.outp (V3 m ρ) c :=
  (W4_arr m ρ c 6).trans (Layer2.arr_o (V3 m ρ) c)

/-- The program's second result: the first call's pre-activation, untouched since. -/
theorem W4_h (c : Dev nD) : (W4 m ρ c (Proc.devRef .tc main_v25_0) : FVec Ideal S100000x128 .f32) = Layer1.hid (V1 m ρ) c := by
  rw [W4_of_ne m ρ c main_v25_0 (by decide)]
  show StableHlo.after hostOps1 (W2 m ρ c) (Proc.devRef .tc main_v25_0) = _
  after_results_simp
  exact W2_h m ρ c

end Cert.KernelIdeal.Stretch

end
-- ==== Proof.RefRead.lean ====
/-
  The reference's two results as mean-aggregating layers, entry by entry.

  The reference computes the pre-activation as `(mean · W_lᵀ + b) + x · W_rᵀ` with `mean = agg / max(cnt, 1)`: read at an
  entry (the generated stage-by-stage reading of the program gives each product as a sum over the shared axis) it is the
  layer `Cert.Sage.linDiv` of the neighbour sums, the clamped counts, the transposed weights and the bias. Its second
  layer is the same function of the activations `max(h, 0)`, and its output `1 / (1 + e^(-z))` is the logistic function
  of that layer's value `z`.
-/
import proofs.«413222_j89378269430400_3_alg».proof.Proof.Gen.ReferenceIdeal.Run
import proofs.«413222_j89378269430400_3_alg».proof.Proof.Gen.ReferenceIdeal.Read
import proofs.«413222_j89378269430400_3_alg».proof.Proof.Lin
import Idealize.ShloMosaic.Lib.IdealHost

noncomputable section

open Idealize.ShloMosaic Idealize.ShloMosaic.ValueIdx
open scoped BigOperators

namespace Cert.ReferenceIdeal.RefValue

open Cert.ReferenceIdeal Cert.ReferenceIdeal.Gen Cert.ReferenceIdeal.Read Cert.Sage

/-! ## The generated index maps are the layer's -/

theorem lidx23_eq (i : S100000x128.Idx) (k : Fin 128) : lidx_main_v23 i k = inRow i k :=
  funext fun a => match a with | ⟨0, _⟩ => rfl | ⟨1, _⟩ => rfl
theorem lidx28_eq (i : S100000x128.Idx) (k : Fin 128) : lidx_main_v28 i k = inRow i k :=
  funext fun a => match a with | ⟨0, _⟩ => rfl | ⟨1, _⟩ => rfl
theorem ridx28_eq (i : S100000x128.Idx) (k : Fin 128) : ridx_main_v28 i k = inCol i k :=
  funext fun a => match a with | ⟨0, _⟩ => rfl | ⟨1, _⟩ => rfl
theorem ridx23_eq (i : S100000x128.Idx) (k : Fin 128) : ridx_main_v23 i k = inCol i k :=
  funext fun a => match a with | ⟨0, _⟩ => rfl | ⟨1, _⟩ => rfl
theorem idx20_eq (i : S100000x128.Idx) (k : Fin 128) : idx_main_v20 (inRow i k) = rowHead i :=
  funext fun a => match a with | ⟨0, _⟩ => rfl | ⟨1, _⟩ => rfl
theorem idx25_eq (i : S100000x128.Idx) : idx_main_v25 i = colHead i :=
  funext fun a => match a with | ⟨0, _⟩ => rfl | ⟨1, _⟩ => rfl
theorem lidx54_eq (i : S100000x1.Idx) (k : Fin 128) : lidx_main_v54 i k = inRow i k :=
  funext fun a => match a with | ⟨0, _⟩ => rfl | ⟨1, _⟩ => rfl
theorem ridx54_eq (i : S100000x1.Idx) (k : Fin 128) : ridx_main_v54 i k = inCol i k :=
  funext fun a => match a with | ⟨0, _⟩ => rfl | ⟨1, _⟩ => rfl
theorem lidx59_eq (i : S100000x1.Idx) (k : Fin 128) : lidx_main_v59 i k = inRow i k :=
  funext fun a => match a with | ⟨0, _⟩ => rfl | ⟨1, _⟩ => rfl
theorem ridx59_eq (i : S100000x1.Idx) (k : Fin 128) : ridx_main_v59 i k = inCol i k :=
  funext fun a => match a with | ⟨0, _⟩ => rfl | ⟨1, _⟩ => rfl
theorem idx51_eq (i : S100000x1.Idx) (k : Fin 128) : idx_main_v51 (inRow i k) = rowHead i :=
  funext fun a => match a with | ⟨0, _⟩ => rfl | ⟨1, _⟩ => rfl
theorem idx56_eq (i : S100000x1.Idx) : idx_main_v56 i = colHead i :=
  funext fun a => match a with
    | ⟨0, _⟩ => rfl
    | ⟨1, _⟩ => Fin.ext (by show 0 = (i 1).val; have := idx2_lt1 i; omega)

/-! ## The constant one -/

theorem one18 (r : S100000x1.Idx) : val_main_v18 (F := Ideal) r = 1 := by
  rw [val_main_v18_apply, val_main_cst_3_apply]; exact Ideal.ofBits_one_f32
theorem one49 (r : S100000x1.Idx) : val_main_v49 (F := Ideal) r = 1 := by
  rw [val_main_v49_apply, val_main_cst_9_apply]; exact Ideal.ofBits_one_f32
theorem one63 (r : S100000x1.Idx) : val_main_v63 (F := Ideal) r = 1 := by
  rw [val_main_v63_apply, val_main_cst_10_apply]; exact Ideal.ofBits_one_f32
theorem one65 (r : S100000x1.Idx) : val_main_v65 (F := Ideal) r = 1 := by
  rw [val_main_v65_apply, val_main_cst_11_apply]; exact Ideal.ofBits_one_f32

/-! ## Layer 1 -/

/-- The pre-activation is the layer of the features, their neighbour sums and the clamped counts. -/
theorem hid_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4
      = linDiv x0 (val_main_v13 (F := Ideal) x0 x1) (fun r => max (val_main_v17 (F := Ideal) x1 r) 1)
          (val_main_v22 (F := Ideal) x2) (val_main_v27 (F := Ideal) x4) (val_main_v24 (F := Ideal) x3) := by
  funext i
  rw [val_main_v29_apply, val_main_v26_apply, val_main_v23_apply, val_main_v28_apply, val_main_v25_apply]
  have e1 : ∀ k : Fin 128, val_main_v21 (F := Ideal) x0 x1 (lidx_main_v23 i k) * val_main_v22 (F := Ideal) x2 (ridx_main_v23 i k)
      = Ideal.div (val_main_v13 (F := Ideal) x0 x1 (inRow i k)) (max (val_main_v17 (F := Ideal) x1 (rowHead i)) 1)
          * val_main_v22 (F := Ideal) x2 (inCol i k) := fun k => by
    rw [lidx23_eq, ridx23_eq, val_main_v21_apply, val_main_v20_apply, idx20_eq, val_main_v19_apply, one18]
    rfl
  have e2 : ∀ k : Fin 128, x0 (lidx_main_v28 i k) * val_main_v27 (F := Ideal) x4 (ridx_main_v28 i k)
      = x0 (inRow i k) * val_main_v27 (F := Ideal) x4 (inCol i k) := fun k => by
    rw [lidx28_eq, ridx28_eq]
  rw [Finset.sum_congr rfl fun k _ => e1 k, Finset.sum_congr rfl fun k _ => e2 k, idx25_eq]
  rfl

/-- The activation is the pre-activation clamped below at zero. -/
theorem act_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4 = fun i => max (val_main_v29 (F := Ideal) x0 x1 x2 x3 x4 i) (Ideal.ofBits .f32 0x00000000#32) := by
  funext i
  rw [val_main_v30_apply, val_main_call0_v0_apply, val_main_call0_cst_apply]
  rfl

/-! ## Layer 2 -/

/-- The reference counts the incoming edges once per layer, with the same operations on the same edge list. -/
theorem cnt_eq (x1 : (⟨S2x1600000, .i32⟩ : BufTy).Contents (Elt Ideal)) : val_main_v48 (F := Ideal) x1 = val_main_v17 (F := Ideal) x1 := rfl

/-- The output is the logistic function of the one-column layer of the activations. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S1x128, .f32⟩ : BufTy).Contents (Elt Ideal)) (x6 : (⟨S1, .f32⟩ : BufTy).Contents (Elt Ideal)) (x7 : (⟨S1x128, .f32⟩ : BufTy).Contents (Elt Ideal)) :
    val_main_v66 (F := Ideal) x0 x1 x2 x3 x4 x5 x6 x7
      = fun i => Ideal.logistic (linDiv (val_main_v30 (F := Ideal) x0 x1 x2 x3 x4) (val_main_v44 (F := Ideal) x0 x1 x2 x3 x4)
          (fun r => max (val_main_v17 (F := Ideal) x1 r) 1) (val_main_v53 (F := Ideal) x5) (val_main_v58 (F := Ideal) x7)
          (val_main_v55 (F := Ideal) x6) i) := by
  funext i
  rw [val_main_v66_apply, val_main_v64_apply, val_main_v62_apply, val_main_v61_apply, val_main_v60_apply,
    val_main_v57_apply, val_main_v54_apply, val_main_v59_apply, val_main_v56_apply, one65, one63]
  have e1 : ∀ k : Fin 128, val_main_v52 (F := Ideal) x0 x1 x2 x3 x4 (lidx_main_v54 i k) * val_main_v53 (F := Ideal) x5 (ridx_main_v54 i k)
      = Ideal.div (val_main_v44 (F := Ideal) x0 x1 x2 x3 x4 (inRow i k)) (max (val_main_v17 (F := Ideal) x1 (rowHead i)) 1)
          * val_main_v53 (F := Ideal) x5 (inCol i k) := fun k => by
    rw [lidx54_eq, ridx54_eq, val_main_v52_apply, val_main_v51_apply, idx51_eq, val_main_v50_apply, one49, cnt_eq]
    rfl
  have e2 : ∀ k : Fin 128, val_main_v30 (F := Ideal) x0 x1 x2 x3 x4 (lidx_main_v59 i k) * val_main_v58 (F := Ideal) x7 (ridx_main_v59 i k)
      = val_main_v30 (F := Ideal) x0 x1 x2 x3 x4 (inRow i k) * val_main_v58 (F := Ideal) x7 (inCol i k) := fun k => by
    rw [lidx59_eq, ridx59_eq]
  rw [Finset.sum_congr rfl fun k _ => e1 k, Finset.sum_congr rfl fun k _ => e2 k, idx56_eq]
  unfold linDiv Ideal.logistic
  simp only [Ideal.hostDivf_def, Ideal.addf_def, Ideal.hostUnary_exp_def, Ideal.hostNegf_def, Ideal.negf_def]

end Cert.ReferenceIdeal.RefValue

end
-- ==== Proof.Bridge.lean ====
/-
  The kernel program's two results are the reference's, as whole arrays.

  Entering the first call the kernel program holds the reference's own neighbour sums and transposed weights, and, in
  place of the reference's divisor `max(cnt, 1)`, its reciprocal. The layer with the reciprocal factor is the layer with
  the divisor (Lin.lean), so the first call's pre-activation array is the reference's pre-activation, and its activation
  array the reference's activation. The stretch between the calls then gathers and scatter-adds equal arrays with the
  same operations, so the second call is entered with the reference's second neighbour sums; the same law once more, and
  the logistic function on both sides, give the output.
-/
import proofs.«413222_j89378269430400_3_alg».proof.Proof.HostK
import proofs.«413222_j89378269430400_3_alg».proof.Proof.RefRead

set_option maxRecDepth 16384

noncomputable section

open Idealize.ShloMosaic Idealize.ShloMosaic.TcCoe Idealize.SL.Sem

namespace Cert.KernelIdeal.Whole

open Cert.KernelIdeal Cert.KernelIdeal.Gen Cert.Sage

variable (m : (ℓ : Loc nD τ sig) → Buf (Elt Ideal) ℓ) (ρ : Dev nD → PrngReg)

/-- A vector of 128 biases reshaped to one row is the vector spread along the row. -/
theorem bias1_eq (b : FVec Ideal S128 .f32) :
    shapeCast S1x128 b shapeCasts_S128_S1x128 = Cert.ReferenceIdeal.Read.val_main_v24 (F := Ideal) b := by
  funext i
  rw [Cert.ReferenceIdeal.Read.val_main_v24_apply]
  exact shapeCast_apply b shapeCasts_S128_S1x128 i (Cert.ReferenceIdeal.Read.idx_main_v24 i)
    (by rewrite [Shape.rowMajor_val_one, Shape.rowMajor_val_two]; have h0 : (i 0).val < 1 := (i 0).isLt; show (i 1).val = (i 0).val * 128 + (i 1).val; omega)

/-- One bias reshaped to a one-entry matrix is the bias spread over it. -/
theorem bias2_eq (b : FVec Ideal S1 .f32) :
    shapeCast S1x1 b shapeCasts_S1_S1x1 = Cert.ReferenceIdeal.Read.val_main_v55 (F := Ideal) b := by
  funext i
  rw [Cert.ReferenceIdeal.Read.val_main_v55_apply]
  exact shapeCast_apply b shapeCasts_S1_S1x1 i (Cert.ReferenceIdeal.Read.idx_main_v55 i)
    (by rewrite [Shape.rowMajor_val_one, Shape.rowMajor_val_two]; have h0 : (i 0).val < 1 := (i 0).isLt; have h1 : (i 1).val < 1 := (i 1).isLt; show 0 = (i 0).val * 1 + (i 1).val; omega)

/-- The first call's pre-activation array is the reference's pre-activation. -/
theorem hid_eq (c : Dev nD) :
    Layer1.hid (V1 m ρ) c = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show lin (V1 m ρ c main_arg0 : FVec Ideal S100000x128 .f32) (V1 m ρ c main_v21 : FVec Ideal S100000x128 .f32)
      (V1 m ρ c main_v11 : FVec Ideal S100000x1 .f32) (V1 m ρ c main_v22 : FVec Ideal S128x128 .f32)
      (V1 m ρ c main_v23 : FVec Ideal S128x128 .f32) (V1 m ρ c main_v24 : FVec Ideal S1x128 .f32) = _
  rw [Stretch.V1_x, Stretch.V1_agg, Stretch.V1_inv, Stretch.V1_wl, Stretch.V1_wr, Stretch.V1_b, bias1_eq,
    Cert.ReferenceIdeal.RefValue.hid_eq]
  exact lin_hostRecip_eq_linDiv _ _ _ _ _ _ _ Cert.ReferenceIdeal.RefValue.one18

/-- The first call's activation array is the reference's activation. -/
theorem act_eq (c : Dev nD) :
    Layer1.act (V1 m ρ) c = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.ReferenceIdeal.RefValue.act_eq, ← hid_eq m ρ c]

/-- The second call's result column is the reference's output. -/
theorem out_eq (c : Dev nD) :
    Layer2.outp (V3 m ρ) c = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show (fun i => Ideal.logistic (lin (V3 m ρ c main_v25_1 : FVec Ideal S100000x128 .f32) (V3 m ρ c main_v35 : FVec Ideal S100000x128 .f32)
      (V3 m ρ c main_v11 : FVec Ideal S100000x1 .f32) (V3 m ρ c main_v36 : FVec Ideal S128x1 .f32)
      (V3 m ρ c main_v37 : FVec Ideal S128x1 .f32) (V3 m ρ c main_v38 : FVec Ideal S1x1 .f32) i)) = _
  rw [Stretch.V3_x, Stretch.V3_agg, Stretch.V3_inv, Stretch.V1_inv, Stretch.V3_wl, Stretch.V3_wr, Stretch.V3_b, bias2_eq,
    act_eq m ρ c, Cert.ReferenceIdeal.RefValue.out_eq]
  rw [lin_hostRecip_eq_linDiv _ _ _ _ _ _ _ Cert.ReferenceIdeal.RefValue.one18]
  rfl

end Cert.KernelIdeal.Whole

end
-- ==== Proof.lean ====
/-
  A two-layer mean-aggregating graph network: the kernel program against its jnp reference, over the extended reals.

  Both programs compute, per node, `h = mean · W1_lᵀ + b1 + x · W1_rᵀ` with `mean` the average of the node's in-neighbours'
  features, then `out = σ(mean' · W2_lᵀ + b2 + relu(h) · W2_rᵀ)` with `mean'` the average of the neighbours' `relu(h)`, and
  return `(out, h)`. The reference does it all with host operations and divides the neighbour sum by `max(cnt, 1)`. The
  kernel program computes the neighbour sums and the reciprocal `1 / max(cnt, 1)` with the same host operations, and does
  each linear layer in a kernel call over 25 row blocks, multiplying by the reciprocal. On the extended reals the two
  agree entry by entry: a divisor that is at least one is not zero, so dividing by it is multiplying by its inverse,
  and a sum of three terms does not depend on their order (Lin.lean). No finiteness of the inputs is used.

  The frames of the two kernel programs are the generated ones; the reference's frame is its generated run with the
  results dropped; the kernel program's run with its two results named is KRun.lean; Layer1.lean and Layer2.lean read the
  calls' result arrays as whole-array functions, HostK.lean the host stretches, RefRead.lean the reference, and
  Bridge.lean joins the two sides.
-/
import proofs.«413222_j89378269430400_3_alg».proof.Defs
import proofs.«413222_j89378269430400_3_alg».proof.Proof.Gen.Kernel
import proofs.«413222_j89378269430400_3_alg».proof.Proof.Gen.Kernel.Skeleton
import proofs.«413222_j89378269430400_3_alg».proof.Proof.Gen.Kernel.Launch
import proofs.«413222_j89378269430400_3_alg».proof.Proof.Gen.Kernel.Points
import proofs.«413222_j89378269430400_3_alg».proof.Proof.Gen.Kernel.Frame
import proofs.«413222_j89378269430400_3_alg».proof.Proof.Gen.KernelIdeal
import proofs.«413222_j89378269430400_3_alg».proof.Proof.Gen.KernelIdeal.Skeleton
import proofs.«413222_j89378269430400_3_alg».proof.Proof.Gen.KernelIdeal.Launch
import proofs.«413222_j89378269430400_3_alg».proof.Proof.Gen.KernelIdeal.Points
import proofs.«413222_j89378269430400_3_alg».proof.Proof.Gen.KernelIdeal.Frame
import proofs.«413222_j89378269430400_3_alg».proof.Proof.Gen.ReferenceIdeal
import proofs.«413222_j89378269430400_3_alg».proof.Proof.Gen.ReferenceIdeal.Run
import proofs.«413222_j89378269430400_3_alg».proof.Proof.Gen.ReferenceIdeal.Read
import proofs.«413222_j89378269430400_3_alg».proof.Proof.Gen.Pre_finite_inputs
import proofs.«413222_j89378269430400_3_alg».proof.Proof.KRun
import proofs.«413222_j89378269430400_3_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the reference's output and pre-activation of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Results.run_results (F := Ideal) m ρ)
    obtain ⟨h0, h1, hargs⟩ := h c
    exact ⟨h0.trans ((Cert.KernelIdeal.Stretch.W4_out m ρ c).trans (Cert.KernelIdeal.Whole.out_eq m ρ c)),
      h1.trans ((Cert.KernelIdeal.Stretch.W4_h m ρ c).trans (Cert.KernelIdeal.Whole.hid_eq m ρ c)), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7⟩ := hagree c
    refine ⟨h0.trans ?_, h1.trans ?_, hargs⟩
    · rw [Cert.ReferenceIdeal.Read.val_main_v66_eq, e0, e1, e2, e3, e4, e5, e6, e7]
    · rw [Cert.ReferenceIdeal.Read.val_main_v29_eq, e0, e1, e2, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
